-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072 : Shape := ⟨1, ![131072]⟩
abbrev S8x100x1024 : Shape := ⟨3, ![8, 100, 1024]⟩
abbrev S8x100 : Shape := ⟨2, ![8, 100]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S8x100x1024 : S_.BroadcastsInDim S8x100x1024 (![] : Fin 0 → Fin S8x100x1024.rank)
  reducesTo_S8x100x1024_S_d0_1_2 : S8x100x1024.ReducesTo [0, 1, 2] S_
  bcast_S_S8x100 : S_.BroadcastsInDim S8x100 (![] : Fin 0 → Fin S8x100.rank)
  reducesTo_S8x100_S_d0_1 : S8x100.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg1 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x1024 .f32) (main_arg1 : IVec S131072 32) (main_arg2 : FVec F S8x100x1024 .f32) (main_arg3 : FVec F S8x100 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S8x100x1024 .f32 := Host.absf main_arg2
  let main_cst_0 : FVec F S_ .f32 := constant S_ .f32 0x7F800000#32
  let main_v5 : FVec F S8x100x1024 .f32 := broadcastInDim S8x100x1024 ![] bcast_S_S8x100x1024 main_cst_0
  let main_v6 : IVec S8x100x1024 1 := cmpf .olt main_v4 main_v5
  let main_c_1 : IVec S_ 1 := constantI S_ 1 1#1
  let main_v7 : IVec S_ 1 := (fun x v => Host.reduce IntOp.andi x v reducesTo_S8x100x1024_S_d0_1_2 h_S_) main_v6 main_c_1
  let main_v8 : IVec S_ 1 := andi main_v3 main_v7
  let main_v9 : FVec F S8x100 .f32 := Host.absf main_arg3
  let main_cst_2 : FVec F S_ .f32 := constant S_ .f32 0x7F800000#32
  let main_v10 : FVec F S8x100 .f32 := broadcastInDim S8x100 ![] bcast_S_S8x100 main_cst_2
  let main_v11 : IVec S8x100 1 := cmpf .olt main_v9 main_v10
  let main_c_3 : IVec S_ 1 := constantI S_ 1 1#1
  let main_v12 : IVec S_ 1 := (fun x v => Host.reduce IntOp.andi x v reducesTo_S8x100_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 32 := constantI S_ 32 8#32
  fn_part1 (F := F) main_arg1 main_v13 main_v15 main_c_5
-- ==== Kernel.lean ====
abbrev S131072x1024 : Shape := ⟨2, ![131072, 1024]⟩
abbrev S131072 : Shape := ⟨1, ![131072]⟩
abbrev S8x100x1024 : Shape := ⟨3, ![8, 100, 1024]⟩
abbrev S8x100 : Shape := ⟨2, ![8, 100]⟩
abbrev S_ : Shape := ⟨0, ![]⟩
abbrev S131072x1 : Shape := ⟨2, ![131072, 1]⟩
abbrev S8x128x1024 : Shape := ⟨3, ![8, 128, 1024]⟩
abbrev S1024x8x128 : Shape := ⟨3, ![1024, 8, 128]⟩
abbrev S1024x1024 : Shape := ⟨2, ![1024, 1024]⟩
abbrev S8x128 : Shape := ⟨2, ![8, 128]⟩
abbrev S1x1024 : Shape := ⟨2, ![1, 1024]⟩
abbrev S131072x100 : Shape := ⟨2, ![131072, 100]⟩
abbrev S2048x1024 : Shape := ⟨2, ![2048, 1024]⟩
abbrev S2048x1 : Shape := ⟨2, ![2048, 1]⟩
abbrev S2048x100 : Shape := ⟨2, ![2048, 100]⟩
abbrev S2048x128 : Shape := ⟨2, ![2048, 128]⟩

abbrev nBuf : Space → Nat
  | .hbm => 24
  | .vmem => 8
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S8x100x1024, .f32⟩
  | .hbm, ⟨3, _⟩ => ⟨S8x100, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072x1, .i32⟩
  | .hbm, ⟨13, _⟩ => ⟨S_, .i32⟩
  | .hbm, ⟨14, _⟩ => ⟨S_, .f32⟩
  | .hbm, ⟨15, _⟩ => ⟨S8x128x1024, .f32⟩
  | .hbm, ⟨16, _⟩ => ⟨S1024x8x128, .f32⟩
  | .hbm, ⟨17, _⟩ => ⟨S1024x1024, .f32⟩
  | .hbm, ⟨18, _⟩ => ⟨S1024x1024, .bf16⟩
  | .hbm, ⟨19, _⟩ => ⟨S_, .i32⟩
  | .hbm, ⟨20, _⟩ => ⟨S_, .f32⟩
  | .hbm, ⟨21, _⟩ => ⟨S8x128, .f32⟩
  | .hbm, ⟨22, _⟩ => ⟨S1x1024, .f32⟩
  | .hbm, ⟨23, _⟩ => ⟨S131072x100, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S1024x1024, .bf16⟩
  | .local _ .vmem, ⟨5, _⟩ => ⟨S1x1024, .f32⟩
  | .local _ .vmem, ⟨6, _⟩ => ⟨S2048x100, .f32⟩
  | .local _ .vmem, ⟨7, _⟩ => ⟨S2048x100, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_c_1 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S131072 : S_.BroadcastsInDim S131072 (![] : Fin 0 → Fin S131072.rank)
  shapeCasts_S131072_S131072x1 : S131072.ShapeCasts S131072x1
  pads_S8x100x1024_S8x128x1024_000_0280_000 : S8x100x1024.Pads (![0, 0, 0] : Fin 3 → Nat) ![0, 28, 0] ![0, 0, 0] S8x128x1024
  h_S_ : 0 < S_.numel
  transposes_S8x128x1024_S1024x8x128_2_0_1 : S8x128x1024.Transposes [2, 0, 1] S1024x8x128
  shapeCasts_S1024x8x128_S1024x1024 : S1024x8x128.ShapeCasts S1024x1024
  bitsLt_bf16_f32 : FTy.bits .bf16 < FTy.bits .f32
  pads_S8x100_S8x128_000_0280 : S8x100.Pads (![0, 0] : Fin 2 → Nat) ![0, 28] ![0, 0] S8x128
  shapeCasts_S8x128_S1x1024 : S8x128.ShapeCasts S1x1024
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  natLt_1_32 : 1 < 32
  slices_S2048x1024_o0_0_S2048x128 : S2048x1024.Slices ![0, 0] S2048x128
  broadcasts_S2048x1_S2048x128 : S2048x1.Broadcasts S2048x128
  slices_S2048x1024_o0_128_S2048x128 : S2048x1024.Slices ![0, 128] S2048x128
  slices_S2048x1024_o0_256_S2048x128 : S2048x1024.Slices ![0, 256] S2048x128
  slices_S2048x1024_o0_384_S2048x128 : S2048x1024.Slices ![0, 384] S2048x128
  slices_S2048x1024_o0_512_S2048x128 : S2048x1024.Slices ![0, 512] S2048x128
  slices_S2048x1024_o0_640_S2048x128 : S2048x1024.Slices ![0, 640] S2048x128
  slices_S2048x1024_o0_768_S2048x128 : S2048x1024.Slices ![0, 768] S2048x128
  slices_S2048x1024_o0_896_S2048x128 : S2048x1024.Slices ![0, 896] S2048x128
  slices_S2048x128_o0_0_S2048x100 : S2048x128.Slices ![0, 0] S2048x100
  inb_S2048x100_S2048x100_0_0 : ∀ a, (![0, 0] : Fin 2 → Nat) a + S2048x100.size a ≤ S2048x100.size a
  h_S2048x100 : 0 < S2048x100.numel
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x100.size a ≤ S131072x100.size a
  hwx0_4 : ∀ i : grid0.Coords, EltTy.bits .f32 = 32 ∨ (Rect.block (s := S131072x100) S2048x100.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072 : Shape := ⟨1, ![131072]⟩
abbrev S8x100x1024 : Shape := ⟨3, ![8, 100, 1024]⟩
abbrev S8x100 : Shape := ⟨2, ![8, 100]⟩
abbrev S131072x8x100 : Shape := ⟨3, ![131072, 8, 100]⟩
abbrev S1x8x100 : Shape := ⟨3, ![1, 8, 100]⟩
abbrev S131072x1x1 : Shape := ⟨3, ![131072, 1, 1]⟩
abbrev S_ : Shape := ⟨0, ![]⟩
abbrev S1 : Shape := ⟨1, ![1]⟩
abbrev S1x1x1 : Shape := ⟨3, ![1, 1, 1]⟩
abbrev S131072x1 : Shape := ⟨2, ![131072, 1]⟩
abbrev S131072x1x100 : Shape := ⟨3, ![131072, 1, 100]⟩
abbrev S131072x100 : Shape := ⟨2, ![131072, 100]⟩

abbrev nBuf : Space → Nat
  | .hbm => 32
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S8x100x1024, .f32⟩
  | .hbm, ⟨3, _⟩ => ⟨S8x100, .f32⟩
  | .hbm, ⟨4, _⟩ => ⟨S131072x8x100, .f32⟩
  | .hbm, ⟨5, _⟩ => ⟨S1x8x100, .f32⟩
  | .hbm, ⟨6, _⟩ => ⟨S131072x8x100, .f32⟩
  | .hbm, ⟨7, _⟩ => ⟨S131072x8x100, .f32⟩
  | .hbm, ⟨8, _⟩ => ⟨S131072x1x1, .i32⟩
  | .hbm, ⟨9, _⟩ => ⟨S_, .i32⟩
  | .hbm, ⟨10, _⟩ => ⟨S131072x1x1, .i32⟩
  | .hbm, ⟨11, _⟩ => ⟨S131072x1x1, .i1⟩
  | .hbm, ⟨12, _⟩ => ⟨S_, .i32⟩
  | .hbm, ⟨13, _⟩ => ⟨S131072x1x1, .i32⟩
  | .hbm, ⟨14, _⟩ => ⟨S131072x1x1, .i32⟩
  | .hbm, ⟨15, _⟩ => ⟨S131072x1x1, .i32⟩
  | .hbm, ⟨16, _⟩ => ⟨S1, .i32⟩
  | .hbm, ⟨17, _⟩ => ⟨S_, .i32⟩
  | .hbm, ⟨18, _⟩ => ⟨S131072x1x1, .i32⟩
  | .hbm, ⟨19, _⟩ => ⟨S131072x1x1, .i1⟩
  | .hbm, ⟨20, _⟩ => ⟨S1x1x1, .i32⟩
  | .hbm, ⟨21, _⟩ => ⟨S131072x1x1, .i32⟩
  | .hbm, ⟨22, _⟩ => ⟨S131072x1x1, .i1⟩
  | .hbm, ⟨23, _⟩ => ⟨S131072x1x1, .i1⟩
  | .hbm, ⟨24, _⟩ => ⟨S_, .i1⟩
  | .hbm, ⟨25, _⟩ => ⟨S131072x1, .i1⟩
  | .hbm, ⟨26, _⟩ => ⟨S131072x1x100, .f32⟩
  | .hbm, ⟨27, _⟩ => ⟨S131072x1x100, .i1⟩
  | .hbm, ⟨28, _⟩ => ⟨S_, .f32⟩
  | .hbm, ⟨29, _⟩ => ⟨S131072x1x100, .f32⟩
  | .hbm, ⟨30, _⟩ => ⟨S131072x1x100, .f32⟩
  | .hbm, ⟨31, _⟩ => ⟨S131072x100, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S8x100_S1x8x100_1_2 : S8x100.BroadcastsInDim S1x8x100 (![1, 2] : Fin 2 → Fin S1x8x100.rank)
  bcast_S1x8x100_S131072x8x100_0_1_2 : S1x8x100.BroadcastsInDim S131072x8x100 (![0, 1, 2] : Fin 3 → Fin S131072x8x100.rank)
  bcast_S131072_S131072x1x1_0 : S131072.BroadcastsInDim S131072x1x1 (![0] : Fin 1 → Fin S131072x1x1.rank)
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  bcast_S131072x1_S131072x1x100_0_1 : S131072x1.BroadcastsInDim S131072x1x100 (![0, 1] : Fin 2 → Fin S131072x1x100.rank)
  bcast_S_S131072x1x100 : S_.BroadcastsInDim S131072x1x100 (![] : Fin 0 → Fin S131072x1x100.rank)
  shapeCasts_S131072x1x100_S131072x100 : S131072x1x100.ShapeCasts S131072x100
  dot_S131072x1024_S8x100x1024_S131072x8x100_1_2_0_01_n_n_wf : DotDims.WF S131072x1024 S8x100x1024 S131072x8x100 [1] [2] [0] [0, 1] [] []
  gather_S131072x8x100_S131072x1x1_S131072x1x100_2_1_0_0_1_2_11100_wf : GatherDims.WF S131072x8x100 S131072x1x1 S131072x1x100 [2] [1] [0] [1] [0] 2 ![1, 1, 100]

variable [Facts₀]

def dot_S131072x1024_S8x100x1024_S131072x8x100_1_2_0_01_n_n : DotDims S131072x1024 S8x100x1024 S131072x8x100 where
  lhsContracting := [1]
  rhsContracting := [2]
  lhsNonContracting := [0]
  rhsNonContracting := [0, 1]
  lhsBatch := []
  rhsBatch := []
  wf := dot_S131072x1024_S8x100x1024_S131072x8x100_1_2_0_01_n_n_wf
def gather_S131072x8x100_S131072x1x1_S131072x1x100_2_1_0_0_1_2_11100 : GatherDims S131072x8x100 S131072x1x1 S131072x1x100 where
  offsetDims := [2]
  collapsedSliceDims := [1]
  operandBatchingDims := [0]
  startIndicesBatchingDims := [0]
  startIndexMap := [1]
  indexVectorDim := 2
  sliceSizes := ![1, 1, 100]
  wf := gather_S131072x8x100_S131072x1x1_S131072x1x100_2_1_0_0_1_2_11100_wf

class Facts : Prop extends Facts₀ where

variable [Facts]
-- ==== Proof.Routing.lean ====
/-
  Donor-routed linear layer: the value both programs compute, and the two facts about one label word
  that the value proofs use.

  For a row `r` whose label `D r` is one of the eight donors, the result's entry at gene `g` is

      out (r, g) = (∑ k, X (r, k) * W (D r, g, k)) + B (D r, g).

  The kernel reaches it as a sum over all eight donors of a 0/1 weight times that donor's entry, the weight
  of donor `d` being the float of the bit "the label equals `d`"; on the extended reals `0 * a = 0`,
  `1 * a = a` and `0 + a = a` hold for every `a`, infinities included, so the sum is the one entry whose
  weight is 1 (`routeSum`). No finiteness is used anywhere.
-/
import Idealize.ShloMosaic.PureOps.Ideal
import Idealize.ShloMosaic.Lib.ValueIdx
import Idealize.ShloMosaic.Lib.StableHlo.Predicate

noncomputable section

namespace Cert.Routing

open Idealize.ShloMosaic Idealize.ShloMosaic.ValueIdx

/-! ## A label word in the label range -/

/-- A word below eight is one of the eight donor numbers. -/
theorem word_cases {w : BitVec 32} (h : w.toNat < 8) :
    w = 0#32 ∨ w = 1#32 ∨ w = 2#32 ∨ w = 3#32 ∨ w = 4#32 ∨ w = 5#32 ∨ w = 6#32 ∨ w = 7#32 := by
  obtain ⟨n, hn, rfl⟩ : ∃ n, n < 8 ∧ w = BitVec.ofNat 32 n := ⟨w.toNat, h, by simp⟩
  interval_cases n <;> simp

/-- The signed range test `0 ≤ w` and `w < 8`, as the precondition spells it, bounds the word's value. -/
theorem toNat_lt_eight {w : BitVec 32} (h0 : IntOp.cmpi .sge w 0#32 = 1#1) (h8 : IntOp.cmpi .slt w 8#32 = 1#1) :
    w.toNat < 8 := by
  have a0 : (0#32 : BitVec 32).sle w = true := (StableHlo.Predicate.ofBool_eq_one_iff _).mp h0
  have a8 : w.slt 8#32 = true := (StableHlo.Predicate.ofBool_eq_one_iff _).mp h8
  have e0 : (0#32 : BitVec 32).toInt = 0 := by decide
  have e8 : (8#32 : BitVec 32).toInt = 8 := by decide
  simp only [BitVec.sle, BitVec.slt, decide_eq_true_eq, e0, e8] at a0 a8
  rw [BitVec.toInt_eq_toNat_cond] at a0 a8
  split_ifs at a0 a8 <;> omega

/-- The donor a label word names (for a word outside the range, donor 7: never read). -/
def donor (w : BitVec 32) : Fin 8 := ⟨min w.toNat 7, by omega⟩

/-- Read as a signed integer and clamped to the donor axis, a label in range is its own donor. -/
theorem clamp_signed {w : BitVec 32} (h : w.toNat < 8) : min w.toInt.toNat (8 - 1) = (donor w).val := by
  have : w.toInt = w.toNat := by
    rw [BitVec.toInt_eq_toNat_cond]; split <;> omega
  show min w.toInt.toNat 7 = min w.toNat 7
  rw [this]; simp

/-- Clamping a label in range into `[0, 7]`, as the kernel's wrapper does, changes nothing. -/
theorem clip_id {w : BitVec 32} (h : w.toNat < 8) : IntOp.minsi 7#32 (IntOp.maxsi 0#32 w) = w := by
  rcases word_cases h with rfl | rfl | rfl | rfl | rfl | rfl | rfl | rfl <;> decide

/-- A negative label is what the reference would wrap around; a label in range is not negative. -/
theorem not_negative {w : BitVec 32} (h : w.toNat < 8) : IntOp.cmpi .slt w 0#32 = 0#1 := by
  rcases word_cases h with rfl | rfl | rfl | rfl | rfl | rfl | rfl | rfl <;> decide

/-- The reference's own range test passes on a label in range. -/
theorem in_range_test {w : BitVec 32} (h : w.toNat < 8) :
    IntOp.andi (IntOp.cmpi .sge w 0#32) (IntOp.cmpi .sle w 7#32) = 1#1 := by
  rcases word_cases h with rfl | rfl | rfl | rfl | rfl | rfl | rfl | rfl <;> decide

/-! ## The one-hot weights and their sum -/

/-- The weight the kernel gives donor `d` on a row labelled `w`: the float of the widened bit `w = d`. -/
def weight (w d : BitVec 32) : EReal :=
  FloatOps.sitofp (F := Ideal) .f32 ((IntOp.cmpi .eq w d).setWidth 32)

theorem weight_self (w : BitVec 32) : weight w w = 1 := by
  unfold weight IntOp.cmpi
  simp [FloatOps.sitofp]

theorem weight_ne {w d : BitVec 32} (h : w ≠ d) : weight w d = 0 := by
  unfold weight IntOp.cmpi
  have : (w == d) = false := by simpa using h
  simp [FloatOps.sitofp, this]

/-- THE ROUTING SUM. Over the eight donors, the weighted sum of the donors' entries, accumulated from zero in donor
    order, is the entry of the row's own donor. -/
theorem routeSum (w : BitVec 32) (hw : w.toNat < 8) (s : Fin 8 → EReal) :
    (0 : EReal) + weight w 0#32 * s 0 + weight w 1#32 * s 1 + weight w 2#32 * s 2 + weight w 3#32 * s 3
      + weight w 4#32 * s 4 + weight w 5#32 * s 5 + weight w 6#32 * s 6 + weight w 7#32 * s 7 = s (donor w) := by
  rcases word_cases hw with rfl | rfl | rfl | rfl | rfl | rfl | rfl | rfl <;>
    simp (disch := decide) only [weight_self, weight_ne, zero_mul, one_mul, add_zero, zero_add] <;>
    exact congrArg s (Fin.ext (by decide))

/-! ## The value -/

/-- The routed linear layer as one function of the four argument arrays, index by index. -/
def routed (X : (⟨2, ![131072, 1024]⟩ : Shape).Idx → EReal) (D : (⟨1, ![131072]⟩ : Shape).Idx → BitVec 32)
    (W : (⟨3, ![8, 100, 1024]⟩ : Shape).Idx → EReal) (B : (⟨2, ![8, 100]⟩ : Shape).Idx → EReal) :
    (⟨2, ![131072, 100]⟩ : Shape).Idx → EReal :=
  fun i => (∑ k : Fin 1024, X (ix2 (i 0) k) * W (ix3 (donor (D (ix1 (i 0)))) (i 1) k))
    + B (ix2 (donor (D (ix1 (i 0)))) (i 1))

end Cert.Routing

end
-- ==== Proof.Payload.lean ====
/-
  The kernel body's result at one entry, at the ideal instance.

  The body forms the score matrix `S = x · w + bias` of its row block (2048 rows against all 8 × 128 padded
  donor columns), then for each row adds up, over the eight donors, the donor's 0/1 weight times the donor's
  128-wide column group of `S`, and stores the first 100 columns. Read at row `r` and gene `g`:

      score:   S (r, j) = (∑ k, x (r, k) * w (k, j)) + bias (0, j)
      result:  out (r, g) = S (r, 128 * d + g)   where `d` is the donor the row's label names,

  the second by the routing sum of `Cert.Routing`, for a row whose label is in range.
-/
import proofs.«421520_j24885040513072_3_alg».proof.Proof.Gen.KernelIdeal.Skeleton
import proofs.«421520_j24885040513072_3_alg».proof.Proof.Routing
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Routing

/-! ## The block product's index maps -/

theorem lhs_dot_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_dot_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_dot_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_dot_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product into a zero accumulator, at (r, j): row `r` of the left block against column `j` of the right. -/
theorem product_apply (a : FVec Ideal S2048x1024 .bf16) (b : FVec Ideal S1024x1024 .bf16) (r : Fin 2048) (j : Fin 1024) :
    matmul dot_S2048x1024_S1024x1024_S2048x1024_1_0_0_1_n_n none a b (constant S2048x1024 .f32 0x00000000#32) (ix2 r j)
      = ∑ k : Fin 1024, a (ix2 r k) * b (ix2 k j) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r j) ((contrEquiv1 dot_S2048x1024_S1024x1024_S2048x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S2048x1024_S1024x1024_S2048x1024_1_0_0_1_n_n.rhsIdx (ix2 r j) ((contrEquiv1 dot_S2048x1024_S1024x1024_S2048x1024_1_0_0_1_n_n 1024 rfl rfl).symm k) = ix2 k j := funext fun a => Fin.ext (by
    match a with
    | ⟨0, _⟩ => exact (rhs_dot_0 _ _).trans hk
    | ⟨1, _⟩ => exact rhs_dot_1 _ _)
  rw [el, er]

/-! ## The scores -/

/-- The bias row laid under every row of the block reads, at (r, j), the bias at (0, j). -/
theorem biasRows_apply (v : FVec Ideal S1x1024 .f32) (r : Fin 2048) (j : Fin 1024) :
    broadcastTo S2048x1024 v broadcasts_S1x1024_S2048x1024 (ix2 r j) = v (ix2 (0 : Fin 1) j) :=
  broadcastTo_apply v broadcasts_S1x1024_S2048x1024 (ix2 r j) (ix2 (0 : Fin 1) j) (fun a => match a with
    | ⟨0, _⟩ => by show (0 : Nat) = if (1 : Nat) = 1 then 0 else _; rw [if_pos rfl]
    | ⟨1, _⟩ => by show j.val = if (1024 : Nat) = 1 then 0 else j.val; rw [if_neg (by decide)])

/-- THE SCORE at (r, j): row `r` of the block of `x` against column `j` of the weights, plus the bias at `j`
    (the changes of float format around the product are the identity here). -/
theorem score_apply (x0 : Vec Ideal S2048x1024 .f32) (x2 : Vec Ideal S1024x1024 .bf16) (x3 : Vec Ideal S1x1024 .f32)
    (r : Fin 2048) (j : Fin 1024) :
    k0_pay3 (F := Ideal) x0 x2 x3 (ix2 r j) = (∑ k : Fin 1024, x0 (ix2 r k) * x2 (ix2 k j)) + x3 (ix2 (0 : Fin 1) j) := by
  unfold k0_pay3
  rw [shapeCast_self, shapeCast_self, addf_apply, product_apply, biasRows_apply]
  rfl

/-! ## The donors' weights and column groups -/

/-- A donor's weight column laid across its 128 lanes reads, at (r, ℓ), the weight of the row's label. -/
theorem weightLanes_apply (v3 : IVec S2048x1 32) (d : BitVec 32) (r : Fin 2048) (l : Fin 128) :
    broadcastTo S2048x128 (sitofp (F := Ideal) .f32 (extui 32 (cmpi .eq v3 (broadcast S2048x1 d)) natLt_1_32)) broadcasts_S2048x1_S2048x128 (ix2 r l)
      = weight (v3 (ix2 r (0 : Fin 1))) d :=
  broadcastTo_apply _ broadcasts_S2048x1_S2048x128 (ix2 r l) (ix2 r (0 : Fin 1)) (fun a => match a with
    | ⟨0, _⟩ => by show r.val = if (2048 : Nat) = 1 then 0 else r.val; rw [if_neg (by decide)]
    | ⟨1, _⟩ => by show (0 : Nat) = if (1 : Nat) = 1 then 0 else _; rw [if_pos rfl])

/-- The 128-wide column group at offset `o` of the scores reads, at (r, ℓ), the score at (r, o + ℓ). -/
theorem group_apply (S : FVec Ideal S2048x1024 .f32) (o : Nat) (h : S2048x1024.Slices ![0, o] S2048x128) (ho : o + 128 ≤ 1024)
    (r : Fin 2048) (l : Fin 128) :
    extractStridedSlice S2048x128 ![0, o] S h (ix2 r l) = S (ix2 r ⟨o + l.val, by omega⟩) :=
  extractStridedSlice_apply ![0, o] S h (ix2 r l) (ix2 r ⟨o + l.val, by omega⟩) (fun a => match a with
    | ⟨0, _⟩ => by show r.val = 0 + r.val; omega
    | ⟨1, _⟩ => rfl)

/-- The first 100 lanes of a 128-lane value. -/
theorem firstLanes_apply (A : FVec Ideal S2048x128 .f32) (r : Fin 2048) (g : Fin 100) :
    extractStridedSlice S2048x100 ![0, 0] A slices_S2048x128_o0_0_S2048x100 (ix2 r g) = A (ix2 r ⟨g.val, by omega⟩) :=
  extractStridedSlice_apply ![0, 0] A slices_S2048x128_o0_0_S2048x100 (ix2 r g) (ix2 r ⟨g.val, by omega⟩) (fun a => match a with
    | ⟨0, _⟩ => by show r.val = 0 + r.val; omega
    | ⟨1, _⟩ => by show g.val = 0 + g.val; omega)

/-! ## The body's result -/

/-- THE BODY'S RESULT at row `r`, gene `g`, for a row whose label is one of the eight donors: the score of the row at
    the column group of the label's donor `d`, lane `g`. -/
theorem result_apply (x0 : Vec Ideal S2048x1024 .f32) (x1 : Vec Ideal S2048x1 .i32) (x2 : Vec Ideal S1024x1024 .bf16)
    (x3 : Vec Ideal S1x1024 .f32) (r : Fin 2048) (g : Fin 100) (hw : (x1 (ix2 r (0 : Fin 1))).toNat < 8)
    (d : Fin 8) (hd : donor (x1 (ix2 r (0 : Fin 1))) = d) :
    k0_pay1 (F := Ideal) (k0_pay2 x1) (k0_pay3 x0 x2 x3) (k0_pay4 x0 x1 x2 x3) 4#32 (ix2 r g)
      = k0_pay3 (F := Ideal) x0 x2 x3 (ix2 r ⟨128 * d.val + g.val, by have := d.isLt; omega⟩) := by
  subst hd
  unfold k0_pay1 k0_pay4 k0_pay2
  rw [shapeCast_self]
  generalize k0_pay3 (F := Ideal) x0 x2 x3 = S
  rw [firstLanes_apply]
  simp only [addf_apply, mulf_apply, weightLanes_apply]
  rw [group_apply S 0 _ (by omega), group_apply S 128 _ (by omega), group_apply S 256 _ (by omega), group_apply S 384 _ (by omega),
    group_apply S 512 _ (by omega), group_apply S 640 _ (by omega), group_apply S 768 _ (by omega), group_apply S 896 _ (by omega)]
  have hz : broadcast S2048x128 (Scalar.ofBits (F := Ideal) .f32 0x00000000#32) (ix2 r ⟨g.val, by omega⟩) = (0 : EReal) :=
    Ideal.ofBits_zero_f32
  rw [hz]
  exact routeSum (x1 (ix2 r (0 : Fin 1))) hw (fun d => S (ix2 r ⟨128 * d.val + g.val, by have := d.isLt; omega⟩))

end Cert.KernelIdeal.Body

end
-- ==== Proof.Entry.lean ====
/-
  What the pallas_call's three computed operands hold when the region is entered, read at an index.

  The wrapper clamps the labels into [0, 7] and lays them out as a column; pads the genes of `W` from 100 to 128,
  moves the input feature to the front and folds (donor, padded gene) into one axis of 8 × 128 columns; and does the
  same fold to the padded bias. So, with column `j = 128 * d + g` for a donor `d` and a gene `g < 100`:

      labels  (R, 0) = clamp (D R)          weights (k, j) = W (d, g, k)          bias (0, j) = B (d, g)

  (no padded entry is ever read at such a column, and the change of format of the weights is the identity here).
-/
import proofs.«421520_j24885040513072_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The three operands as terms of the arguments -/

/-- The label column: the labels clamped into [0, 7], reshaped to a column. -/
theorem labels_eq (c : Dev nD) : (V m c main_v1 : S131072x1.Idx → BitVec 32)
    = shapeCast S131072x1 (minsi (broadcastInDim S131072 ![] bcast_S_S131072 (constantI S_ 32 7#32))
        (maxsi (broadcastInDim S131072 ![] bcast_S_S131072 (constantI S_ 32 0#32)) (m ((c : Thread nD τ).loc main_arg1))))
        shapeCasts_S131072_S131072x1 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The weight matrix: `W` padded along the genes, the feature axis moved to the front, (donor, gene) folded. -/
theorem weights_eq (c : Dev nD) : (V m c main_v5 : S1024x1024.Idx → EReal)
    = truncf (F := Ideal) .bf16 (shapeCast S1024x1024 (transpose S1024x8x128 [2, 0, 1]
        (pad S8x128x1024 ![0, 0, 0] ![0, 28, 0] ![0, 0, 0] (m ((c : Thread nD τ).loc main_arg2))
          (sitofp (F := Ideal) .f32 (constantI S_ 32 0#32)) pads_S8x100x1024_S8x128x1024_000_0280_000 h_S_)
        transposes_S8x128x1024_S1024x8x128_2_0_1) shapeCasts_S1024x8x128_S1024x1024) bitsLt_bf16_f32 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The bias row: `B` padded along the genes, (donor, gene) folded into one row. -/
theorem bias_eq (c : Dev nD) : (V m c main_v7 : S1x1024.Idx → EReal)
    = shapeCast S1x1024 (pad S8x128 ![0, 0] ![0, 28] ![0, 0] (m ((c : Thread nD τ).loc main_arg3))
        (sitofp (F := Ideal) .f32 (constantI S_ 32 0#32)) pads_S8x100_S8x128_000_0280 h_S_) shapeCasts_S8x128_S1x1024 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## Read at an index -/

/-- A splat word reads the word everywhere. -/
theorem splat_apply (w : BitVec 32) (i : S131072.Idx) :
    broadcastInDim S131072 ![] bcast_S_S131072 (constantI S_ 32 w) i = w :=
  (broadcastInDim_apply _ bcast_S_S131072 (constantI S_ 32 w) i ix0 (fun a => a.elim0)).trans rfl

/-- THE LABEL of row `R` as the region finds it: the argument's label, clamped into [0, 7]. -/
theorem labels_apply (c : Dev nD) (R : Fin 131072) :
    (V m c main_v1 : S131072x1.Idx → BitVec 32) (ix2 R (0 : Fin 1))
      = IntOp.minsi 7#32 (IntOp.maxsi 0#32 (m ((c : Thread nD τ).loc main_arg1) (ix1 R))) := by
  rw [labels_eq]
  refine (shapeCast_apply _ shapeCasts_S131072_S131072x1 (ix2 R (0 : Fin 1)) (ix1 R)
    (by rw [Shape.rowMajor_val_one, Shape.rowMajor_val_two]; show R.val = R.val * 1 + 0; omega)).trans ?_
  show IntOp.minsi (broadcastInDim S131072 ![] bcast_S_S131072 (constantI S_ 32 7#32) (ix1 R))
      (IntOp.maxsi (broadcastInDim S131072 ![] bcast_S_S131072 (constantI S_ 32 0#32) (ix1 R)) _) = _
  rw [splat_apply, splat_apply]

/-- THE WEIGHT at feature `k` and the column of donor `d`, gene `g`: `W (d, g, k)`. -/
theorem weights_apply (c : Dev nD) (k : Fin 1024) (d : Fin 8) (g : Fin 100) :
    (V m c main_v5 : S1024x1024.Idx → EReal) (ix2 k ⟨128 * d.val + g.val, by omega⟩)
      = m ((c : Thread nD τ).loc main_arg2) (ix3 d g k) := by
  rw [weights_eq]
  refine (truncf_apply _ bitsLt_bf16_f32 _).trans ?_
  refine (shapeCast_apply _ shapeCasts_S1024x8x128_S1024x1024 (ix2 k ⟨128 * d.val + g.val, by omega⟩)
    (ix3 k d (⟨g.val, by omega⟩ : Fin 128))
    (by rw [Shape.rowMajor_val_three, Shape.rowMajor_val_two]
        show (k.val * 8 + d.val) * 128 + g.val = k.val * 1024 + (128 * d.val + g.val); omega)).trans ?_
  refine (transpose_apply [2, 0, 1] _ transposes_S8x128x1024_S1024x8x128_2_0_1 (ix3 k d (⟨g.val, by omega⟩ : Fin 128))
    (ix3 d (⟨g.val, by omega⟩ : Fin 128) k) (fun b => match b with
      | ⟨0, _⟩ => rfl
      | ⟨1, _⟩ => rfl
      | ⟨2, _⟩ => rfl)).trans ?_
  exact pad_apply_of_inside ![0, 0, 0] ![0, 28, 0] ![0, 0, 0] _ _ pads_S8x100x1024_S8x128x1024_000_0280_000 h_S_
    (ix3 d (⟨g.val, by omega⟩ : Fin 128) k) (ix3 d g k) (fun a => match a with
      | ⟨0, _⟩ => by show d.val = 0 + d.val * (0 + 1); omega
      | ⟨1, _⟩ => by show g.val = 0 + g.val * (0 + 1); omega
      | ⟨2, _⟩ => by show k.val = 0 + k.val * (0 + 1); omega)

/-- THE BIAS at the column of donor `d`, gene `g`: `B (d, g)`. -/
theorem bias_apply (c : Dev nD) (d : Fin 8) (g : Fin 100) :
    (V m c main_v7 : S1x1024.Idx → EReal) (ix2 (0 : Fin 1) ⟨128 * d.val + g.val, by omega⟩)
      = m ((c : Thread nD τ).loc main_arg3) (ix2 d g) := by
  rw [bias_eq]
  refine (shapeCast_apply _ shapeCasts_S8x128_S1x1024 (ix2 (0 : Fin 1) ⟨128 * d.val + g.val, by omega⟩)
    (ix2 d (⟨g.val, by omega⟩ : Fin 128))
    (by rw [Shape.rowMajor_val_two, Shape.rowMajor_val_two]
        show d.val * 128 + g.val = 0 * 1024 + (128 * d.val + g.val); omega)).trans ?_
  exact pad_apply_of_inside ![0, 0] ![0, 28] ![0, 0] _ _ pads_S8x100_S8x128_000_0280 h_S_
    (ix2 d (⟨g.val, by omega⟩ : Fin 128)) (ix2 d g) (fun a => match a with
      | ⟨0, _⟩ => by show d.val = 0 + d.val * (0 + 1); omega
      | ⟨1, _⟩ => by show g.val = 0 + g.val * (0 + 1); omega)

end Cert.KernelIdeal.Entry

end
-- ==== Proof.Whole.lean ====
/-
  From the 64 row blocks to the whole result array.

  Grid point `t` works on rows `2048 t … 2048 t + 2047`: its block of `x` and of the label column are those rows, the
  weight matrix and the bias row are the same whole arrays at every point, and it writes back rows `2048 t …` of the
  result. With the body's result at an entry (Payload) and the operands' contents at region entry (Entry), what point
  `t` writes back is block `t` of the routed linear layer of the ARGUMENT arrays; the 64 blocks cover the result, so
  the result array ends at that function.
-/
import proofs.«421520_j24885040513072_3_alg».proof.Proof.Gen.KernelIdeal.Value
import proofs.«421520_j24885040513072_3_alg».proof.Proof.Payload
import proofs.«421520_j24885040513072_3_alg».proof.Proof.Entry
import proofs.«421520_j24885040513072_3_alg».proof.Proof.Routing

set_option maxRecDepth 16384

noncomputable section

namespace Cert.KernelIdeal.Whole

open Cert.KernelIdeal Cert.KernelIdeal.Gen Cert.KernelIdeal.Body Cert.KernelIdeal.Entry
open Idealize.ShloMosaic Idealize.ShloMosaic.TcCoe Idealize.SL.Sem Idealize.ShloMosaic.ValueIdx Cert.Routing
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the blocks of `x`, of the labels and of the result move with the point along
    the rows; the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks, read off the argument arrays -/

/-- Row `r` of point `t`'s block of `x` is row `2048 t + r` of `x`. -/
theorem xblk_apply (c : Dev nD) (t : Fin cfg0.N) (r : Fin 2048) (k : Fin 1024) :
    iblk m c 0 t (ix2 r k)
      = m ((c : Thread nD τ).loc main_arg0) (ix2 ⟨2048 * t.val + r.val, by have : t.val < 64 := t.isLt; omega⟩ k) := by
  show V m c main_arg0 (((cfg0.win 0).blk t).view.emb (ix2 r k)) = _
  rw [V_main_arg0]
  obtain ⟨e0, e1, -⟩ := idx_facts t
  refine congrArg _ (funext fun a => Fin.ext ?_)
  match a with
  | ⟨0, _⟩ => show win0_0.index t (0 : Fin 2) * 2048 + 1 * r.val = 2048 * t.val + r.val; omega
  | ⟨1, _⟩ => show win0_0.index t (1 : Fin 2) * 1024 + 1 * k.val = k.val; omega

/-- Row `r` of point `t`'s block of the label column is the label of row `2048 t + r`, for a label in range. -/
theorem lblk_apply (c : Dev nD) (hD : ∀ i, (m ((c : Thread nD τ).loc main_arg1) i).toNat < 8) (t : Fin cfg0.N) (r : Fin 2048) :
    iblk m c 1 t (ix2 r (0 : Fin 1))
      = m ((c : Thread nD τ).loc main_arg1) (ix1 ⟨2048 * t.val + r.val, by have : t.val < 64 := t.isLt; omega⟩) := by
  have e : iblk m c 1 t (ix2 r (0 : Fin 1))
      = (V m c main_v1 : S131072x1.Idx → BitVec 32) (ix2 ⟨2048 * t.val + r.val, by have : t.val < 64 := t.isLt; omega⟩ (0 : Fin 1)) := by
    show V m c main_v1 (((cfg0.win 1).blk t).view.emb (ix2 r (0 : Fin 1))) = _
    obtain ⟨-, -, e0, e1, -⟩ := idx_facts t
    refine congrArg _ (funext fun a => Fin.ext ?_)
    match a with
    | ⟨0, _⟩ => show win0_1.index t (0 : Fin 2) * 2048 + 1 * r.val = 2048 * t.val + r.val; omega
    | ⟨1, _⟩ => show win0_1.index t (1 : Fin 2) * 1 + 1 * 0 = 0; omega
  rw [e, labels_apply, clip_id (hD _)]

/-- Every point's block of the weights is the whole matrix: at feature `k` and donor `d`'s gene `g`, `W (d, g, k)`. -/
theorem wblk_apply (c : Dev nD) (t : Fin cfg0.N) (k : Fin 1024) (d : Fin 8) (g : Fin 100) :
    iblk m c 2 t (ix2 k ⟨128 * d.val + g.val, by omega⟩) = m ((c : Thread nD τ).loc main_arg2) (ix3 d g k) := by
  have e : iblk m c 2 t (ix2 k ⟨128 * d.val + g.val, by omega⟩)
      = (V m c main_v5 : S1024x1024.Idx → EReal) (ix2 k ⟨128 * d.val + g.val, by omega⟩) := by
    show V m c main_v5 (((cfg0.win 2).blk t).view.emb (ix2 k ⟨128 * d.val + g.val, by omega⟩)) = _
    obtain ⟨-, -, -, -, e0, e1, -⟩ := idx_facts t
    refine congrArg _ (funext fun a => Fin.ext ?_)
    match a with
    | ⟨0, _⟩ => show win0_2.index t (0 : Fin 2) * 1024 + 1 * k.val = k.val; omega
    | ⟨1, _⟩ => show win0_2.index t (1 : Fin 2) * 1024 + 1 * (128 * d.val + g.val) = 128 * d.val + g.val; omega
  rw [e, weights_apply]

/-- Every point's block of the bias is the whole row: at donor `d`'s gene `g`, `B (d, g)`. -/
theorem bblk_apply (c : Dev nD) (t : Fin cfg0.N) (d : Fin 8) (g : Fin 100) :
    iblk m c 3 t (ix2 (0 : Fin 1) ⟨128 * d.val + g.val, by omega⟩) = m ((c : Thread nD τ).loc main_arg3) (ix2 d g) := by
  have e : iblk m c 3 t (ix2 (0 : Fin 1) ⟨128 * d.val + g.val, by omega⟩)
      = (V m c main_v7 : S1x1024.Idx → EReal) (ix2 (0 : Fin 1) ⟨128 * d.val + g.val, by omega⟩) := by
    show V m c main_v7 (((cfg0.win 3).blk t).view.emb (ix2 (0 : Fin 1) ⟨128 * d.val + g.val, by omega⟩)) = _
    obtain ⟨-, -, -, -, -, -, e0, e1, -⟩ := idx_facts t
    refine congrArg _ (funext fun a => Fin.ext ?_)
    match a with
    | ⟨0, _⟩ => show win0_3.index t (0 : Fin 2) * 1 + 1 * 0 = 0; omega
    | ⟨1, _⟩ => show win0_3.index t (1 : Fin 2) * 1024 + 1 * (128 * d.val + g.val) = 128 * d.val + g.val; omega
  rw [e, bias_apply]

/-! ## What a point writes back, and the whole array -/

/-- The routed layer at row `R`, gene `g`, spelt out. -/
theorem routed_apply (X : S131072x1024.Idx → EReal) (D : S131072.Idx → BitVec 32) (W : S8x100x1024.Idx → EReal)
    (B : S8x100.Idx → EReal) (R : Fin 131072) (g : Fin 100) :
    routed X D W B (ix2 R g)
      = (∑ k : Fin 1024, X (ix2 R k) * W (ix3 (donor (D (ix1 R))) g k)) + B (ix2 (donor (D (ix1 R))) g) := rfl

/-- The routed linear layer of the argument arrays as launched. -/
abbrev result (c : Dev nD) : S131072x100.Idx → EReal :=
  routed (m ((c : Thread nD τ).loc main_arg0)) (m ((c : Thread nD τ).loc main_arg1))
    (m ((c : Thread nD τ).loc main_arg2)) (m ((c : Thread nD τ).loc main_arg3))

/-- WHAT POINT `t` WRITES BACK is block `t` of the routed layer of the argument arrays. -/
theorem flushed_eq (c : Dev nD) (hD : ∀ i, (m ((c : Thread nD τ).loc main_arg1) i).toNat < 8) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S2048x1024) hz, View.ld_unit_zero (S := S2048x1) hz,
    View.ld_unit_zero (S := S1024x1024) hz, View.ld_unit_zero (S := S1x1024) hz]
  funext y
  obtain ⟨r, g, rfl⟩ : ∃ (r : Fin 2048) (g : Fin 100), y = ix2 r g := ⟨y 0, y 1, eq_ix2 y⟩
  have ht : t.val < 64 := t.isLt
  show k0_pay1 (F := Ideal) (k0_pay2 (iblk m c 1 t)) (k0_pay3 (iblk m c 0 t) (iblk m c 2 t) (iblk m c 3 t))
      (k0_pay4 (iblk m c 0 t) (iblk m c 1 t) (iblk m c 2 t) (iblk m c 3 t)) 4#32 (ix2 r g)
    = result m c (((cfg0.win 4).blk t).view.emb (ix2 r g))
  have hemb : ((cfg0.win 4).blk t).view.emb (ix2 r g) = ix2 (⟨2048 * t.val + r.val, by omega⟩ : Fin 131072) g := by
    obtain ⟨-, -, -, -, -, -, -, -, e0, e1⟩ := idx_facts t
    funext a; apply Fin.ext
    match a with
    | ⟨0, _⟩ => show win0_4.index t (0 : Fin 2) * 2048 + 1 * r.val = 2048 * t.val + r.val; omega
    | ⟨1, _⟩ => show win0_4.index t (1 : Fin 2) * 100 + 1 * g.val = g.val; omega
  rw [hemb]
  refine Eq.trans ?_ (routed_apply _ _ _ _ (⟨2048 * t.val + r.val, by omega⟩ : Fin 131072) g).symm
  have hl := lblk_apply m c hD t r
  obtain ⟨d, hd⟩ : ∃ d : Fin 8,
      donor (m ((c : Thread nD τ).loc main_arg1) (ix1 (⟨2048 * t.val + r.val, by omega⟩ : Fin 131072))) = d := ⟨_, rfl⟩
  rw [hd]
  refine (result_apply (iblk m c 0 t) (iblk m c 1 t) (iblk m c 2 t) (iblk m c 3 t) r g (by rw [hl]; exact hD _)
    d (by rw [hl]; exact hd)).trans ?_
  refine (score_apply (iblk m c 0 t) (iblk m c 2 t) (iblk m c 3 t) r ⟨128 * d.val + g.val, by omega⟩).trans ?_
  congr 1
  · refine Finset.sum_congr rfl fun k _ => ?_
    rw [xblk_apply m c t r k, wblk_apply m c t k d g]
  · exact bblk_apply m c t d g

/-- An index of the result is in point `t`'s block iff its row is among the point's 2048 rows. -/
theorem mem_blk (t : Fin cfg0.N) (i : S131072x100.Idx) :
    i ∈ ((cfg0.win 4).blk t).view.set ↔ ∀ a : Fin 2, win0_4.index t a * S2048x100.size a ≤ (i a).val
      ∧ (i a).val < win0_4.index t a * S2048x100.size a + S2048x100.size a := by
  show i ∈ ((View.whole main_v8).slice (win0_4.rect t)).set ↔ _
  rw [View.set_slice_whole, Rect.mem_set_unit]
  exact Iff.rfl

/-- The 64 blocks cover the result: row `R` is in the block of point `R / 2048`. -/
theorem cover (i : S131072x100.Idx) : ∃ t : Fin cfg0.N, (cfg0.win 4).flush t = true ∧ i ∈ ((cfg0.win 4).blk t).view.set := by
  have hi0 : (i 0).val < 131072 := (i 0).isLt
  have hi1 : (i 1).val < 100 := (i 1).isLt
  refine ⟨⟨(i 0).val / 2048, by show (i 0).val / 2048 < 64; omega⟩, flush0_4 _, ?_⟩
  rw [mem_blk]
  obtain ⟨-, -, -, -, -, -, -, -, e0, e1⟩ := idx_facts ⟨(i 0).val / 2048, by show (i 0).val / 2048 < 64; omega⟩
  have e0' : win0_4.index ⟨(i 0).val / 2048, by show (i 0).val / 2048 < 64; omega⟩ (0 : Fin 2) = (i 0).val / 2048 := e0
  intro a
  match a with
  | ⟨0, _⟩ =>
    show win0_4.index _ (0 : Fin 2) * 2048 ≤ (i 0).val ∧ (i 0).val < win0_4.index _ (0 : Fin 2) * 2048 + 2048
    rw [e0']; omega
  | ⟨1, _⟩ =>
    show win0_4.index _ (1 : Fin 2) * 100 ≤ (i 1).val ∧ (i 1).val < win0_4.index _ (1 : Fin 2) * 100 + 100
    rw [e1]; omega

/-- THE RESULT ARRAY after the run is the routed layer of the argument arrays. -/
theorem final (c : Dev nD) (hD : ∀ i, (m ((c : Thread nD τ).loc main_arg1) i).toNat < 8) :
    (dats m 0 c).arrAt 4 cfg0.N = result m c :=
  (dats m 0 c).arrAt_eq_of_cover 4 (result m c) (fun t _ => flushed_eq m c hD t) cover

/-- THE KERNEL'S RUN at the ideal instance, for labels in range: it terminates with the result array at the routed
    layer of the arguments, the arguments unchanged. -/
theorem run (hD : ∀ (c : Dev nD) i, (m ((c : Thread nD τ).loc main_arg1) i).toNat < 8) :
    θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hD c)), (h c).2⟩)
    (Cert.KernelIdeal.Value.run_blocks m ρ)

end Cert.KernelIdeal.Whole

end
-- ==== Proof.LibAllOnes.lean ====
/-
  A `stablehlo.reduce` by `and` of a one-bit array whose every element is 1, from the initial value 1, is 1 at every
  result index — the converse of reading `jnp.all` back (Lib/ReduceAll.lean reads a 1 result as "every element is 1").
  General in the shapes and the reduced axes.
-/
import Idealize.ShloMosaic.PureOps.Reduce

namespace Idealize.ShloMosaic.Host

variable {s t u : Shape} {axes : List (Fin s.rank)}

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- THE CONVERSE OF `jnp.all` READ BACK: all ones in, from the initial value one, gives one at every result index. -/
theorem reduce_andi_of_all (x : s.Idx → BitVec 1) (init : u.Idx → BitVec 1) (h : s.ReducesTo axes t) (hu : 0 < u.numel)
    (j : t.Idx) (hx : ∀ i, x i = 1#1) (hi : init (Shape.Idx.first hu) = 1#1) :
    Host.reduce IntOp.andi x init h hu j = 1#1 := by
  rw [Host.reduce_eq_foldl, hi]
  exact foldl_andi_ones x hx _

end Idealize.ShloMosaic.Host
-- ==== Proof.RefValue.lean ====
/-
  The reference's result is the routed linear layer, for labels in the label range.

  The reference computes every donor's output `x · W[d]ᵀ + b[d]` for every row, then takes, per row, the donor the
  row's label names: `take_along_axis` first wraps a negative label around, tests the wrapped label against [0, 7],
  gathers at the label clamped into that range, and keeps the gathered entry where the test passed (a NaN elsewhere).
  For a label already in [0, 7] nothing wraps, the test passes and the clamp is the identity, so the entry taken is the
  label's own donor's.
-/
import proofs.«421520_j24885040513072_3_alg».proof.Proof.RefRead
import proofs.«421520_j24885040513072_3_alg».proof.Proof.Routing
import proofs.«421520_j24885040513072_3_alg».proof.Proof.LibAllOnes
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadPatched
open Idealize.ShloMosaic Idealize.ShloMosaic.ValueIdx Cert.Routing

/-! ## The per-row take, at an index -/

theorem take_axis0 (idx : IVec S131072x1x1 32) (j : S131072x1x100.Idx) :
    (gather_S131072x8x100_S131072x1x1_S131072x1x100_2_1_0_0_1_2_11100.operandIdx j idx 0).val = (j 0).val := by
  show gather_S131072x8x100_S131072x1x1_S131072x1x100_2_1_0_0_1_2_11100.start j idx 0
    + gather_S131072x8x100_S131072x1x1_S131072x1x100_2_1_0_0_1_2_11100.batchCoord j 0
    + gather_S131072x8x100_S131072x1x1_S131072x1x100_2_1_0_0_1_2_11100.offCoord j 0 = _
  rw [GatherDims.start_batching _ j idx 0 (by decide), GatherDims.offCoord_eq_zero _ j 0 (by decide)]
  show 0 + (j 0).val + 0 = (j 0).val
  omega

theorem take_axis1 (idx : IVec S131072x1x1 32) (j : S131072x1x100.Idx) :
    (gather_S131072x8x100_S131072x1x1_S131072x1x100_2_1_0_0_1_2_11100.operandIdx j idx 1).val
      = min (idx (ix3 (j 0) (0 : Fin 1) (0 : Fin 1))).toInt.toNat (8 - 1) := by
  show gather_S131072x8x100_S131072x1x1_S131072x1x100_2_1_0_0_1_2_11100.start j idx 1
    + gather_S131072x8x100_S131072x1x1_S131072x1x100_2_1_0_0_1_2_11100.batchCoord j 1
    + gather_S131072x8x100_S131072x1x1_S131072x1x100_2_1_0_0_1_2_11100.offCoord j 1 = _
  rw [GatherDims.batchCoord_eq_zero _ j 1 (by decide), GatherDims.offCoord_eq_zero _ j 1 (by decide)]
  unfold GatherDims.start
  rw [dif_pos (show (1 : Fin S131072x8x100.rank) ∈ gather_S131072x8x100_S131072x1x1_S131072x1x100_2_1_0_0_1_2_11100.startIndexMap by decide)]
  have hsi : gather_S131072x8x100_S131072x1x1_S131072x1x100_2_1_0_0_1_2_11100.siIdx j
      ⟨List.idxOf (1 : Fin S131072x8x100.rank) gather_S131072x8x100_S131072x1x1_S131072x1x100_2_1_0_0_1_2_11100.startIndexMap,
        List.idxOf_lt_length_iff.2 (by decide)⟩ = ix3 (j 0) (0 : Fin 1) (0 : Fin 1) := by
    funext b; refine Fin.ext ?_
    match b with
    | ⟨0, _⟩ => rfl
    | ⟨1, _⟩ => exact (Nat.lt_one_iff.mp (Fin.isLt _)).trans (Nat.lt_one_iff.mp (Fin.isLt _)).symm
    | ⟨2, _⟩ => rfl
  rw [hsi]
  rfl

theorem take_axis2 (idx : IVec S131072x1x1 32) (j : S131072x1x100.Idx) :
    (gather_S131072x8x100_S131072x1x1_S131072x1x100_2_1_0_0_1_2_11100.operandIdx j idx 2).val = (j 2).val := by
  show gather_S131072x8x100_S131072x1x1_S131072x1x100_2_1_0_0_1_2_11100.start j idx 2
    + gather_S131072x8x100_S131072x1x1_S131072x1x100_2_1_0_0_1_2_11100.batchCoord j 2
    + gather_S131072x8x100_S131072x1x1_S131072x1x100_2_1_0_0_1_2_11100.offCoord j 2 = _
  rw [GatherDims.batchCoord_eq_zero _ j 2 (by decide)]
  unfold GatherDims.start GatherDims.offCoord
  rw [dif_neg (show ¬(2 : Fin S131072x8x100.rank) ∈ gather_S131072x8x100_S131072x1x1_S131072x1x100_2_1_0_0_1_2_11100.startIndexMap by decide),
    dif_pos (show (2 : Fin S131072x8x100.rank) ∈ gather_S131072x8x100_S131072x1x1_S131072x1x100_2_1_0_0_1_2_11100.sKept by decide)]
  show 0 + 0 + (j 2).val = (j 2).val
  omega

/-- THE TAKE at row `R`, gene `g`: the operand at (R, e, g), where `e` is the row's start index read signed and clamped
    into the donor axis. -/
theorem take_apply (x : S131072x8x100.Idx → EReal) (idx : IVec S131072x1x1 32) (R : Fin 131072) (g : Fin 100) (e : Fin 8)
    (he : min (idx (ix3 R (0 : Fin 1) (0 : Fin 1))).toInt.toNat (8 - 1) = e.val) :
    Host.gather gather_S131072x8x100_S131072x1x1_S131072x1x100_2_1_0_0_1_2_11100 x idx (ix3 R (0 : Fin 1) g)
      = x (ix3 R e g) := by
  unfold Host.gather
  refine congrArg x (funext fun a => Fin.ext ?_)
  match a with
  | ⟨0, _⟩ => exact take_axis0 idx _
  | ⟨1, _⟩ => exact (take_axis1 idx _).trans he
  | ⟨2, _⟩ => exact take_axis2 idx _

/-! ## The reference's result -/

/-- THE REFERENCE IS THE ROUTED LAYER, for labels in range. -/
theorem reference_eq (x0 : (⟨S131072x1024, .f32⟩ : BufTy).Contents (Elt Ideal)) (x1 : (⟨S131072, .i32⟩ : BufTy).Contents (Elt Ideal))
    (x2 : (⟨S8x100x1024, .f32⟩ : BufTy).Contents (Elt Ideal)) (x3 : (⟨S8x100, .f32⟩ : BufTy).Contents (Elt Ideal))
    (hD : ∀ i, (x1 i).toNat < 8) :
    val_main_v6 (F := Ideal) x0 x1 x2 x3 = routed x0 x1 x2 x3 := by
  funext i
  obtain ⟨R, g, rfl⟩ : ∃ (R : Fin 131072) (g : Fin 100), i = ix2 R g := ⟨i 0, i 1, eq_ix2 i⟩
  rw [val_main_v6_apply]
  have hidx : idx_main_v6 (ix2 R g) = ix3 R (0 : Fin 1) g := by
    funext a; apply Fin.ext
    match a with
    | ⟨0, _⟩ => show (R.val * 100 + g.val) / 100 = R.val; omega
    | ⟨1, _⟩ => rfl
    | ⟨2, _⟩ => show (R.val * 100 + g.val) % 100 = g.val; omega
  rw [hidx, val_main_v5_apply]
  -- the label the callee works with is the row's own: nothing wraps around
  have hlab : ∀ j : S131072x1x1.Idx,
      val_main_call0_v4 (F := Ideal) x1 j = x1 (ix1 (⟨(j 0).val, (j 0).isLt⟩ : Fin 131072)) := by
    intro j
    have e4 : idx_main_v4 j = ix1 (⟨(j 0).val, (j 0).isLt⟩ : Fin 131072) := by funext a; match a with | ⟨0, _⟩ => rfl
    rw [val_main_call0_v4_apply, val_main_call0_v1_apply, val_main_v4_apply, val_main_call0_v0_apply, val_main_call0_c_apply, e4,
      not_negative (hD _)]
    exact select_zero _ _
  -- the range test passes on every row
  have hmask : val_main_call0_v13 (F := Ideal) x1 (ix3 R (0 : Fin 1) g) = 1#1 := by
    rw [val_main_call0_v13_apply]
    unfold val_main_call0_v11
    refine Host.reduce_andi_of_all _ _ _ _ _ (fun j => ?_) rfl
    rw [val_main_call0_v10_apply, val_main_call0_v6_apply, val_main_call0_v9_apply, hlab, val_main_call0_v5_apply,
      val_main_call0_c_2_apply, val_main_call0_v8_apply, val_main_call0_v7_apply, val_main_call0_c_1_apply]
    exact in_range_test (hD _)
  rw [hmask, select_one]
  unfold val_main_call0_v12
  rw [take_apply _ _ R g (donor (x1 (ix1 R))) (by rw [hlab]; exact clamp_signed (hD _))]
  rw [val_main_v3_apply, val_main_v0_apply, val_main_v2_apply, val_main_v1_apply]
  have el : ∀ k : Fin 1024, lidx_main_v0 (ix3 R (donor (x1 (ix1 R))) g) k = ix2 R k := fun k => by
    funext a; match a with | ⟨0, _⟩ => rfl | ⟨1, _⟩ => rfl
  have er : ∀ k : Fin 1024, ridx_main_v0 (ix3 R (donor (x1 (ix1 R))) g) k = ix3 (donor (x1 (ix1 R))) g k := fun k => by
    funext a; match a with | ⟨0, _⟩ => rfl | ⟨1, _⟩ => rfl | ⟨2, _⟩ => rfl
  have eb : idx_main_v1 (idx_main_v2 (ix3 R (donor (x1 (ix1 R))) g)) = ix2 (donor (x1 (ix1 R))) g := by
    funext a; match a with | ⟨0, _⟩ => rfl | ⟨1, _⟩ => rfl
  simp only [el, er, eb]
  rfl

end Cert.ReferenceIdeal.RefValue

end
-- ==== Proof.LabelRange.lean ====
/-
  The precondition's last conjunct read back: every label is one of the eight donors.

  The precondition ends in `… ∧ all (0 ≤ D ∧ D < 8)`: an `and` of the three finiteness tests with a reduce by `and`,
  over all rows, of the two signed comparisons of the label against the splat constants 0 and 8. If the whole is 1, the
  reduce is 1, so both comparisons hold at every row, which bounds the label word's value by 8.
-/
import proofs.«421520_j24885040513072_3_alg».proof.Pre_finite_inputs
import proofs.«421520_j24885040513072_3_alg».proof.Proof.Routing
import Idealize.ShloMosaic.Lib.ReduceAll
import Idealize.ShloMosaic.Lib.Pipeline.Value
import Idealize.ShloMosaic.Lib.ValueIdx

noncomputable section

namespace Cert.Pre_finite_inputs.Labels

open Cert.Pre_finite_inputs Cert.Pre_finite_inputs.Facts Idealize.ShloMosaic Idealize.ShloMosaic.ValueIdx Cert.Routing

variable [Facts] {F : FTy → Type} [FloatOps F]

/-- A splat word reads the word at every row. -/
theorem splat_apply (w : BitVec 32) (i : S131072.Idx) :
    broadcastInDim S131072 ![] bcast_S_S131072 (constantI S_ 32 w) i = w :=
  (broadcastInDim_apply _ bcast_S_S131072 (constantI S_ 32 w) i ix0 (fun a => a.elim0)).trans rfl

/-- EVERY LABEL IS A DONOR, under the precondition. -/
theorem labels_in_range (a0 : FVec F S131072x1024 .f32) (a1 : IVec S131072 32) (a2 : FVec F S8x100x1024 .f32)
    (a3 : FVec F S8x100 .f32) (h : fn (F := F) a0 a1 a2 a3 = fun _ => 1#1) (i : S131072.Idx) : (a1 i).toNat < 8 := by
  have h0 := congrFun h ix0
  unfold fn fn_part1 at h0
  have h19 := (IntOp.andi_eq_one.1 h0).2
  haveI : Subsingleton S_.Idx := ⟨fun a b => funext fun d => d.elim0⟩
  have hi := Host.reduce_andi_all _ _ _ _ _ h19 i
  obtain ⟨hge, hlt⟩ := IntOp.andi_eq_one.1 hi
  have hge' : IntOp.cmpi .sge (a1 i) (broadcastInDim S131072 ![] bcast_S_S131072 (constantI S_ 32 0#32) i) = 1#1 := hge
  have hlt' : IntOp.cmpi .slt (a1 i) (broadcastInDim S131072 ![] bcast_S_S131072 (constantI S_ 32 8#32) i) = 1#1 := hlt
  rw [splat_apply] at hge' hlt'
  exact toNat_lt_eight hge' hlt'

end Cert.Pre_finite_inputs.Labels

end
-- ==== Proof.lean ====
/-
  Donor-routed linear layer (eight "expert" linear maps, one per donor label), kernel against reference, over the
  extended reals.

  THE VALUE. For a row `r` with label `D r` in the label range [0, 8) and a gene `g`,

      out (r, g) = (∑ k, x (r, k) * W (D r, g, k)) + b (D r, g).

  THE REFERENCE computes all eight donors' outputs and takes the labelled one per row (`take_along_axis`: a negative
  label wraps around, a label outside [0, 7] after wrapping gives a NaN row). THE KERNEL clamps the label into [0, 7],
  multiplies the row block by the weights of all eight donors at once (genes padded to 128 lanes per donor), adds the
  bias, and sums the eight 128-lane groups under the 0/1 weights "label = d". The two agree exactly where the label is a
  donor, 0 ≤ D r < 8 — the precondition's added conjunct; outside it they differ (at label −1 the reference reads donor 7
  and the kernel donor 0; at label 8 the reference is a NaN row and the kernel reads donor 7).

  THE LAW joining the two sides is `0 * a = 0`, `1 * a = a`, `0 + a = a` on the extended reals, which hold at the
  infinities too: the proof never uses that the float inputs are finite. The sum over the input features is the same
  sum on both sides, term for term (the changes of float format around the kernel's product are the identity here).

  Modules: Routing (the value and the routing sum), Payload (the kernel body at an entry), Entry (the computed operands
  at region entry), Whole (blocks to the whole array, the kernel's run), RefValue (the reference is the value),
  LabelRange (the precondition's range conjunct read back), LibAllOnes (an `and`-reduce of ones).
-/
import proofs.«421520_j24885040513072_3_alg».proof.Defs
import proofs.«421520_j24885040513072_3_alg».proof.Proof.Gen.Kernel
import proofs.«421520_j24885040513072_3_alg».proof.Proof.Gen.Kernel.Skeleton
import proofs.«421520_j24885040513072_3_alg».proof.Proof.Gen.Kernel.Launch
import proofs.«421520_j24885040513072_3_alg».proof.Proof.Gen.Kernel.Points
import proofs.«421520_j24885040513072_3_alg».proof.Proof.Gen.Kernel.Frame
import proofs.«421520_j24885040513072_3_alg».proof.Proof.Gen.KernelIdeal
import proofs.«421520_j24885040513072_3_alg».proof.Proof.Gen.KernelIdeal.Skeleton
import proofs.«421520_j24885040513072_3_alg».proof.Proof.Gen.KernelIdeal.Launch
import proofs.«421520_j24885040513072_3_alg».proof.Proof.Gen.KernelIdeal.Points
import proofs.«421520_j24885040513072_3_alg».proof.Proof.Gen.KernelIdeal.Frame
import proofs.«421520_j24885040513072_3_alg».proof.Proof.Gen.ReferenceIdeal
import proofs.«421520_j24885040513072_3_alg».proof.Proof.Gen.Pre_finite_inputs
import proofs.«421520_j24885040513072_3_alg».proof.Proof.Gen.KernelIdeal.Value
import proofs.«421520_j24885040513072_3_alg».proof.Proof.RefRun
import proofs.«421520_j24885040513072_3_alg».proof.Proof.RefRead
import proofs.«421520_j24885040513072_3_alg».proof.Proof.Routing
import proofs.«421520_j24885040513072_3_alg».proof.Proof.Payload
import proofs.«421520_j24885040513072_3_alg».proof.Proof.Entry
import proofs.«421520_j24885040513072_3_alg».proof.Proof.Whole
import proofs.«421520_j24885040513072_3_alg».proof.Proof.RefValue
import proofs.«421520_j24885040513072_3_alg».proof.Proof.LabelRange
import proofs.«421520_j24885040513072_3_alg».proof.Proof.LibAllOnes
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.RunPatched.run (F := Ideal) m ρ)

/-- The ideal pass rewrote nothing in this kernel. -/
theorem preserves : Cert.preserves_Kernel_KernelIdeal := trivial

/-- Under the precondition every label is a donor (its range conjunct read back); then the kernel's result array ends
    at the routed layer of the arguments (`Whole.run`) and so does the reference's (`RefValue.reference_eq`), of
    arguments that agree. -/
theorem algebraic : Cert.algebraic_KernelIdeal_ReferenceIdeal := by
  intro m ρ m' ρ' hpre hagree
  have hD : ∀ (c : Dev Cert.KernelIdeal.nD) i,
      (m ((c : Thread Cert.KernelIdeal.nD Cert.KernelIdeal.τ).loc Cert.KernelIdeal.main_arg1) i).toNat < 8 :=
    fun c i => Cert.Pre_finite_inputs.Labels.labels_in_range _ _ _ _ (hpre c) i
  refine ⟨fun c => Cert.KernelIdeal.Whole.result m c, Cert.KernelIdeal.Whole.run m ρ hD, ?_⟩
  refine (θ_run Cert.ReferenceIdeal.defs _ _).mono (fun _ h c => ⟨(h c).1.trans ?_, (h c).2⟩)
    (Cert.ReferenceIdeal.RunPatched.run (F := Ideal) m' ρ')
  rw [Cert.ReferenceIdeal.ReadPatched.val_main_v6_eq,
    Cert.ReferenceIdeal.RefValue.reference_eq _ _ _ _ (by rw [(hagree c).2.1]; exact hD c),
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
